-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S3200000 : Shape := ⟨1, ![3200000]⟩
abbrev S256x64 : Shape := ⟨2, ![256, 64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg2 : IVec S1600000 32) (main_arg5 : IVec S3200000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg2 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  let main_c_7 : IVec S_ 32 := constantI S_ 32 0#32
  let main_v21 : IVec S3200000 32 := broadcastInDim S3200000 ![] bcast_S_S3200000 main_c_7
  let main_v22 : IVec S3200000 1 := cmpi .sge main_arg5 main_v21
  let main_c_8 : IVec S_ 32 := constantI S_ 32 100000#32
  let main_v23 : IVec S3200000 32 := broadcastInDim S3200000 ![] bcast_S_S3200000 main_c_8
  let main_v24 : IVec S3200000 1 := cmpi .slt main_arg5 main_v23
  let main_v25 : IVec S3200000 1 := andi main_v22 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v20 main_v26
  main_v27

def fn {F : FTy → Type} [FloatOps F] (main_arg0 : FVec F S1600000 .f32) (main_arg1 : IVec S1600000 32) (main_arg2 : IVec S1600000 32) (main_arg3 : FVec F S3200000 .f32) (main_arg4 : IVec S3200000 32) (main_arg5 : IVec S3200000 32) (main_arg6 : FVec F S256x64 .f32) (main_arg7 : IVec S1600000 1) : IVec S_ 1 :=
  let main_v0 : FVec F S1600000 .f32 := Host.absf main_arg0
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg6
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg2 main_v14
  let main_c_5 : IVec S_ 32 := constantI S_ 32 256#32
  fn_part1 (F := F) main_arg2 main_arg5 main_v13 main_v15 main_c_5
-- ==== Kernel.lean ====
abbrev S1600000 : Shape := ⟨1, ![1600000]⟩
abbrev S3200000 : Shape := ⟨1, ![3200000]⟩
abbrev S256x64 : Shape := ⟨2, ![256, 64]⟩
abbrev S_ : Shape := ⟨0, ![]⟩
abbrev S1605632 : Shape := ⟨1, ![1605632]⟩
abbrev S802816x128 : Shape := ⟨2, ![802816, 128]⟩
abbrev S16384 : Shape := ⟨1, ![16384]⟩
abbrev S8192x128 : Shape := ⟨2, ![8192, 128]⟩
abbrev S16384x1 : Shape := ⟨2, ![16384, 1]⟩
abbrev S16384x64 : Shape := ⟨2, ![16384, 64]⟩
abbrev S16384x128 : Shape := ⟨2, ![16384, 128]⟩
abbrev S128x64 : Shape := ⟨2, ![128, 64]⟩
abbrev S1605632x64 : Shape := ⟨2, ![1605632, 64]⟩
abbrev S100001x64 : Shape := ⟨2, ![100001, 64]⟩
abbrev S1605632x1 : Shape := ⟨2, ![1605632, 1]⟩
abbrev S100000x64 : Shape := ⟨2, ![100000, 64]⟩
abbrev S3200000x1 : Shape := ⟨2, ![3200000, 1]⟩
abbrev S1 : Shape := ⟨1, ![1]⟩
abbrev S1x1 : Shape := ⟨2, ![1, 1]⟩
abbrev S3200000x64 : Shape := ⟨2, ![3200000, 64]⟩

abbrev nBuf : Space → Nat
  | .hbm => 65
  | .vmem => 7
  | .smem => 0
  | _ => 0

abbrev bufTy : (tb : Table) → Fin (tcTables nBuf tb) → BufTy
  | .hbm, ⟨0, _⟩ => ⟨S1600000, .f32⟩
  | .hbm, ⟨1, _⟩ => ⟨S1600000, .i32⟩
  | .hbm, ⟨2, _⟩ => ⟨S1600000, .i32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S256x64, .f32⟩
  | .hbm, ⟨7, _⟩ => ⟨S1600000, .i1⟩
  | .hbm, ⟨8, _⟩ => ⟨S_, .f32⟩
  | .hbm, ⟨9, _⟩ => ⟨S_, .f32⟩
  | .hbm, ⟨10, _⟩ => ⟨S1600000, .f32⟩
  | .hbm, ⟨11, _⟩ => ⟨S1600000, .f32⟩
  | .hbm, ⟨12, _⟩ => ⟨S_, .f32⟩
  | .hbm, ⟨13, _⟩ => ⟨S1600000, .f32⟩
  | .hbm, ⟨14, _⟩ => ⟨S1600000, .f32⟩
  | .hbm, ⟨15, _⟩ => ⟨S_, .i32⟩
  | .hbm, ⟨16, _⟩ => ⟨S_, .f32⟩
  | .hbm, ⟨17, _⟩ => ⟨S1605632, .f32⟩
  | .hbm, ⟨18, _⟩ => ⟨S_, .i32⟩
  | .hbm, ⟨19, _⟩ => ⟨S_, .i32⟩
  | .hbm, ⟨20, _⟩ => ⟨S1605632, .i32⟩
  | .hbm, ⟨21, _⟩ => ⟨S_, .i32⟩
  | .hbm, ⟨22, _⟩ => ⟨S_, .i32⟩
  | .hbm, ⟨23, _⟩ => ⟨S1605632, .i32⟩
  | .hbm, ⟨24, _⟩ => ⟨S256x64, .bf16⟩
  | .hbm, ⟨25, _⟩ => ⟨S802816x128, .f32⟩
  | .hbm, ⟨26, _⟩ => ⟨S1605632x64, .f32⟩
  | .hbm, ⟨27, _⟩ => ⟨S_, .f32⟩
  | .hbm, ⟨28, _⟩ => ⟨S100001x64, .f32⟩
  | .hbm, ⟨29, _⟩ => ⟨S1605632x1, .i32⟩
  | .hbm, ⟨30, _⟩ => ⟨S100001x64, .f32⟩
  | .hbm, ⟨31, _⟩ => ⟨S100000x64, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S1, .i32⟩
  | .hbm, ⟨41, _⟩ => ⟨S_, .i32⟩
  | .hbm, ⟨42, _⟩ => ⟨S3200000x1, .i32⟩
  | .hbm, ⟨43, _⟩ => ⟨S3200000x1, .i1⟩
  | .hbm, ⟨44, _⟩ => ⟨S1x1, .i32⟩
  | .hbm, ⟨45, _⟩ => ⟨S3200000x1, .i32⟩
  | .hbm, ⟨46, _⟩ => ⟨S3200000x1, .i1⟩
  | .hbm, ⟨47, _⟩ => ⟨S3200000x1, .i1⟩
  | .hbm, ⟨48, _⟩ => ⟨S_, .i1⟩
  | .hbm, ⟨49, _⟩ => ⟨S3200000, .i1⟩
  | .hbm, ⟨50, _⟩ => ⟨S3200000x64, .f32⟩
  | .hbm, ⟨51, _⟩ => ⟨S3200000x64, .i1⟩
  | .hbm, ⟨52, _⟩ => ⟨S_, .f32⟩
  | .hbm, ⟨53, _⟩ => ⟨S3200000x64, .f32⟩
  | .hbm, ⟨54, _⟩ => ⟨S3200000x64, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .local _ .vmem, ⟨0, _⟩ => ⟨S16384, .f32⟩
  | .local _ .vmem, ⟨1, _⟩ => ⟨S16384, .f32⟩
  | .local _ .vmem, ⟨2, _⟩ => ⟨S16384, .i32⟩
  | .local _ .vmem, ⟨3, _⟩ => ⟨S16384, .i32⟩
  | .local _ .vmem, ⟨4, _⟩ => ⟨S256x64, .bf16⟩
  | .local _ .vmem, ⟨5, _⟩ => ⟨S8192x128, .f32⟩
  | .local _ .vmem, ⟨6, _⟩ => ⟨S8192x128, .f32⟩
  | _, _ => ⟨S1600000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call1_v0 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_c_2 : Ref sig .tc := ⟨.hbm, 21, rfl⟩
abbrev main_call3_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call4_c : Ref sig .tc := ⟨.hbm, 32, rfl⟩
abbrev main_call4_v0 : Ref sig .tc := ⟨.hbm, 33, rfl⟩
abbrev main_call4_v1 : Ref sig .tc := ⟨.hbm, 34, rfl⟩
abbrev main_call4_c_0 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_call4_c_1 : Ref sig .tc := ⟨.hbm, 40, rfl⟩
abbrev main_call4_c_2 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_c_3 : Ref sig .tc := ⟨.hbm, 48, rfl⟩
abbrev main_call4_v12 : Ref sig .tc := ⟨.hbm, 49, rfl⟩
abbrev main_call4_v13 : Ref sig .tc := ⟨.hbm, 50, rfl⟩
abbrev main_call4_v14 : Ref sig .tc := ⟨.hbm, 51, rfl⟩
abbrev main_call4_cst : Ref sig .tc := ⟨.hbm, 52, rfl⟩
abbrev main_call4_v15 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_4 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_call5_cst : Ref sig .tc := ⟨.hbm, 62, rfl⟩
abbrev main_call5_v0 : Ref sig .tc := ⟨.hbm, 63, rfl⟩
abbrev main_v20 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![98], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  pads_S1600000_S1605632_056320 : S1600000.Pads (![0] : Fin 1 → Nat) ![5632] ![0] S1605632
  h_S_ : 0 < S_.numel
  bitsLt_bf16_f32 : FTy.bits .bf16 < FTy.bits .f32
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  iota_S16384x128_d1_w32 : S16384x128.Iotas .tc 32 [1]
  broadcasts_S16384x1_S16384x128 : S16384x1.Broadcasts S16384x128
  natLt_1_32 : 1 < 32
  inb_S256x64_S128x64_0_0 : ∀ a, (![0, 0] : Fin 2 → Nat) a + S128x64.size a ≤ S256x64.size a
  h_S128x64 : 0 < S128x64.numel
  shapeCasts_S128x64_S128x64 : S128x64.ShapeCasts S128x64
  inb_S256x64_S128x64_128_0 : ∀ a, (![128, 0] : Fin 2 → Nat) a + S128x64.size a ≤ S256x64.size a
  broadcasts_S16384x1_S16384x64 : S16384x1.Broadcasts S16384x64
  shapeCasts_S16384x64_S8192x128 : S16384x64.ShapeCasts S8192x128
  inb_S8192x128_S8192x128_0_0 : ∀ a, (![0, 0] : Fin 2 → Nat) a + S8192x128.size a ≤ S8192x128.size a
  h_S8192x128 : 0 < S8192x128.numel
  shapeCasts_S802816x128_S1605632x64 : S802816x128.ShapeCasts S1605632x64
  bcast_S_S100001x64 : S_.BroadcastsInDim S100001x64 (![] : Fin 0 → Fin S100001x64.rank)
  bcast_S1605632_S1605632x1_0 : S1605632.BroadcastsInDim S1605632x1 (![0] : Fin 1 → Fin S1605632x1.rank)
  slices_S100001x64_S100000x64_0_0 : S100001x64.Slices ![0, 0] S100000x64
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  dot_S16384x128_S128x64_S16384x64_1_0_0_1_n_n_wf : DotDims.WF S16384x128 S128x64 S16384x64 [1] [0] [0] [1] [] []
  scatter_S100001x64_S1605632x1_S1605632x64_1_0_0_1_wf : ScatterDims.WF S100001x64 S1605632x1 S1605632x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S1605632.size a
  hwx0_0 : ∀ i : grid0.Coords, EltTy.bits .f32 = 32 ∨ (Rect.block (s := S1605632) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S1605632.size a
  hwx0_1 : ∀ i : grid0.Coords, EltTy.bits .i32 = 32 ∨ (Rect.block (s := S1605632) S16384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S802816x128.size a
  hwx0_3 : ∀ i : grid0.Coords, EltTy.bits .f32 = 32 ∨ (Rect.block (s := S802816x128) S8192x128.size (cc0_transform_3 i) (hinb0_3 i)).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def scatter_S100001x64_S1605632x1_S1605632x64_1_0_0_1 : ScatterDims S100001x64 S1605632x1 S1605632x64 where
  updateWindowDims := [1]
  insertedWindowDims := [0]
  scatterDimsToOperandDims := [0]
  indexVectorDim := 1
  wf := scatter_S100001x64_S1605632x1_S1605632x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_v3) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000 : Shape := ⟨1, ![1600000]⟩
abbrev S3200000 : Shape := ⟨1, ![3200000]⟩
abbrev S256x64 : Shape := ⟨2, ![256, 64]⟩
abbrev S_ : Shape := ⟨0, ![]⟩
abbrev S1600000x1 : Shape := ⟨2, ![1600000, 1]⟩
abbrev S1600000x64 : Shape := ⟨2, ![1600000, 64]⟩
abbrev S100000x64 : Shape := ⟨2, ![100000, 64]⟩
abbrev S3200000x1 : Shape := ⟨2, ![3200000, 1]⟩
abbrev S3200000x64 : Shape := ⟨2, ![3200000, 64]⟩

abbrev nBuf : Space → Nat
  | .hbm => 49
  | .vmem => 0
  | .smem => 0
  | _ => 0

abbrev bufTy : (tb : Table) → Fin (tcTables nBuf tb) → BufTy
  | .hbm, ⟨0, _⟩ => ⟨S1600000, .f32⟩
  | .hbm, ⟨1, _⟩ => ⟨S1600000, .i32⟩
  | .hbm, ⟨2, _⟩ => ⟨S1600000, .i32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S256x64, .f32⟩
  | .hbm, ⟨7, _⟩ => ⟨S1600000, .i1⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S_, .f32⟩
  | .hbm, ⟨12, _⟩ => ⟨S1600000, .f32⟩
  | .hbm, ⟨13, _⟩ => ⟨S1600000, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S3200000x1, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x64, .f32⟩
  | .hbm, ⟨40, _⟩ => ⟨S3200000x64, .f32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | _, _ => ⟨S1600000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  gather_S256x64_S1600000x1_S1600000x64_1_0_n_n_0_1_164_wf : GatherDims.WF S256x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def gather_S256x64_S1600000x1_S1600000x64_1_0_n_n_0_1_164 : GatherDims S256x64 S1600000x1 S1600000x64 where
  offsetDims := [1]
  collapsedSliceDims := [0]
  operandBatchingDims := []
  startIndicesBatchingDims := []
  startIndexMap := [0]
  indexVectorDim := 1
  sliceSizes := ![1, 64]
  wf := gather_S256x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.HostTail.lean ====
/-
  The host operations after the region, as functions of what they read.

  After the region the host reads the output array as 1605632 x 64 and adds its rows into a zero 100001 x 64 array by
  the padded row words, keeping the first 100000 rows (`hidden`); takes rows of that by the adjacency's column words,
  a negative word moved up by 100000, a row outside [0, 99999] replaced by the fill value (`taken`); scales each taken
  row by its edge weight, adds the rows into a zero 100000 x 64 array by the adjacency's row words, and clamps at zero
  from below (`aggregated`).
-/
import proofs.«403709_j24644522344646_3_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Rows

open Idealize.ShloMosaic Idealize.ShloMosaic.TcCoe Idealize.SL.Sem
open Cert.KernelIdeal Cert.KernelIdeal.Gen

variable (m : (ℓ : Loc nD τ sig) → Buf (Elt Ideal) ℓ)

/-- The output array's rows added by the padded row words, the first 100000 rows kept. -/
def hidden (xrp : IVec S1605632 32) (out : Vec Ideal S802816x128 .f32) : Vec Ideal S100000x64 .f32 :=
  extractStridedSlice S100000x64 ![0, 0]
    (Host.scatterAdd scatter_S100001x64_S1605632x1_S1605632x64_1_0_0_1
      (broadcastInDim S100001x64 ![] bcast_S_S100001x64 (constant (F := Ideal) S_ .f32 0x00000000#32))
      (broadcastInDim S1605632x1 ![0] bcast_S1605632_S1605632x1_0 xrp)
      (shapeCast S1605632x64 out shapeCasts_S802816x128_S1605632x64))
    slices_S100001x64_S100000x64_0_0

/-- The column words with a negative word moved up by 100000, as a column. -/
def wrapped (ac : IVec S3200000 32) : IVec S3200000x1 32 :=
  broadcastInDim S3200000x1 ![0] bcast_S3200000_S3200000x1_0
    (select (cmpi .slt ac (broadcastInDim S3200000 ![] bcast_S_S3200000 (constantI S_ 32 0#32)))
      (addi ac (broadcastInDim S3200000 ![] bcast_S_S3200000 (constantI S_ 32 100000#32))) ac)

/-- Rows of `H` taken by the column words: a word outside [0, 99999] after the move reads the fill value. -/
def taken (H : Vec Ideal S100000x64 .f32) (ac : IVec S3200000 32) : Vec Ideal S3200000x64 .f32 :=
  select
    (broadcastInDim S3200000x64 ![0] bcast_S3200000_S3200000x64_0
      (Host.reduce IntOp.andi
        (andi (cmpi .sge (wrapped ac) (broadcastInDim S3200000x1 ![] bcast_S_S3200000x1 (constantI S_ 32 0#32)))
          (cmpi .sle (wrapped ac)
            (broadcastInDim S3200000x1 ![0, 1] bcast_S1x1_S3200000x1_0_1
              (broadcastInDim S1x1 ![1] bcast_S1_S1x1_1 (constantI S1 32 99999#32)))))
        (constantI S_ 1 1#1) reducesTo_S3200000x1_S3200000_d1 h_S_))
    (Host.gather gather_S100000x64_S3200000x1_S3200000x64_1_0_n_n_0_1_164 H (wrapped ac))
    (broadcastInDim S3200000x64 ![] bcast_S_S3200000x64 (constant (F := Ideal) S_ .f32 0x7FC00000#32))

/-- The taken rows scaled by the edge weights, added by the row words, clamped at zero from below. -/
def aggregated (G : Vec Ideal S3200000x64 .f32) (av : Vec Ideal S3200000 .f32) (ar : IVec S3200000 32) :
    Vec Ideal S100000x64 .f32 :=
  maximumf
    (Host.scatterAdd scatter_S100000x64_S3200000x1_S3200000x64_1_0_0_1
      (broadcastInDim S100000x64 ![] bcast_S_S100000x64 (constant (F := Ideal) S_ .f32 0x00000000#32))
      (broadcastInDim S3200000x1 ![0] bcast_S3200000_S3200000x1_0 ar)
      (mulf (broadcastInDim S3200000x64 ![0, 1] bcast_S3200000x1_S3200000x64_0_1
          (broadcastInDim S3200000x1 ![0] bcast_S3200000_S3200000x1_0 av)) G))
    (broadcastInDim S100000x64 ![] bcast_S_S100000x64 (constant (F := Ideal) S_ .f32 0x00000000#32))

/-- The contents the lines after the region start from: the pipeline's arrays as the region left them, every other
    buffer as the region found it. -/
abbrev W (c : Dev nD) : Valuation τ sig (Elt Ideal) :=
  Pipeline.withArrays (cfgs 0).spec c (V0 m c) (fun w => (dats m 0 c).arrAt w (cfgs 0).N)

/-- The output array is the pipeline's fourth array: the lines after the region find it as the region left it. -/
theorem W_v7 (c : Dev nD) : W m c (Proc.devRef .tc main_v7) = (dats m 0 c).arrAt 3 cfg0.N :=
  Pipeline.withArrays_arr spec0 launch0.win.arr_inj c _ _ 3

/-- The padded row words are no array of the pipeline: the lines after the region find them as the region did. -/
theorem W_v5 (c : Dev nD) : W m c (Proc.devRef .tc main_v5) = V m c main_v5 :=
  Pipeline.withArrays_of_ne _ c (V0 m c) _ main_v5 (by exact (by decide : ∀ w, Pipeline.arrRef spec0 w ≠ main_v5))

/-- The edge weights are no array of the pipeline, and no line before the region writes them: they are as launched. -/
theorem W_arg3 (c : Dev nD) : W m c (Proc.devRef .tc main_arg3) = m ((c : Thread nD τ).loc main_arg3) :=
  (Pipeline.withArrays_of_ne _ c (V0 m c) _ main_arg3
    (by exact (by decide : ∀ w, Pipeline.arrRef spec0 w ≠ main_arg3))).trans (V_main_arg3 m c)

/-- The adjacency's row words likewise. -/
theorem W_arg4 (c : Dev nD) : W m c (Proc.devRef .tc main_arg4) = m ((c : Thread nD τ).loc main_arg4) :=
  (Pipeline.withArrays_of_ne _ c (V0 m c) _ main_arg4
    (by exact (by decide : ∀ w, Pipeline.arrRef spec0 w ≠ main_arg4))).trans (V_main_arg4 m c)

/-- The adjacency's column words likewise. -/
theorem W_arg5 (c : Dev nD) : W m c (Proc.devRef .tc main_arg5) = m ((c : Thread nD τ).loc main_arg5) :=
  (Pipeline.withArrays_of_ne _ c (V0 m c) _ main_arg5
    (by exact (by decide : ∀ w, Pipeline.arrRef spec0 w ≠ main_arg5))).trans (V_main_arg5 m c)

/-- THE RESULT BUFFER after the lines that follow the region: those three functions of the adjacency's arrays as
    launched, the padded row words as the region found them, and the output array as the region left it. -/
theorem tail_eq (c : Dev nD) :
    (Pipeline.afterTail₀ cfgs (dats m) 0 (V0 m) [hostOps1, hostOps1_1, hostOps1_2, hostOps1_3] c main_v20
        : S100000x64.Idx → EReal)
      = aggregated
          (taken (hidden (V m c main_v5) ((dats m 0 c).arrAt 3 cfg0.N)) (m ((c : Thread nD τ).loc main_arg5)))
          (m ((c : Thread nD τ).loc main_arg3)) (m ((c : Thread nD τ).loc main_arg4)) := by
  -- the lines after the region as one list, run from `W`
  unfold Pipeline.afterTail₀
  -- an operation of a called function carries its operands and its result between a buffer's type and the tensor
  -- value's type; the two types are the same, so the carrying is the identity
  simp only [hostOps1, hostOps1_1, hostOps1_2, hostOps1_3, List.flatten_cons, List.flatten_nil, List.append_nil,
    List.cons_append, List.nil_append, StableHlo.TRef.nullary, StableHlo.TRef.unary, StableHlo.TRef.binary,
    StableHlo.TRef.ternary, StableHlo.TRef.toBuf, StableHlo.TRef.ofBuf, cast_eq]
  -- each result buffer is written once: the last one holds the operations composed, over `W` at the five buffers
  -- the lines read and do not write
  after_results_simp
  rw [show Pipeline.withArrays (cfgs 0).spec c (V0 m c) (fun w => (dats m 0 c).arrAt w (cfgs 0).N) = W m c from rfl]
  rw [W_v7 m c, W_v5 m c, W_arg3 m c, W_arg4 m c, W_arg5 m c]
  unfold aggregated taken hidden wrapped
  -- both sides are the same composition of the same operations over the same five arrays, whatever those hold
  generalize (dats m 0 c).arrAt 3 cfg0.N = out
  generalize V m c main_v5 = xrp
  generalize m ((c : Thread nD τ).loc main_arg3) = av
  generalize m ((c : Thread nD τ).loc main_arg4) = ar
  generalize m ((c : Thread nD τ).loc main_arg5) = ac
  rfl

end Cert.KernelIdeal.Rows

end
-- ==== Proof.HostPrefix.lean ====
/-
  What the region finds in its three input arrays.

  Before the region the host scales the retained values (a value where the mask bit is set, zero elsewhere, times
  the constant), pads the scaled values with 5632 zeros, the column words with 5632 zero words and the row words with
  5632 copies of the word 100000, and re-types the table (the identity on extended reals).
-/
import proofs.«403709_j24644522344646_3_alg».proof.Proof.Gen.KernelIdeal.Frame
import Idealize.ShloMosaic.Lib.ValueIdx
import Idealize.ShloMosaic.Lib.StableHlo.Run
import Idealize.ShloMosaic.Lib.KernelVsHost

noncomputable section

namespace Cert.KernelIdeal.Rows

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The retained values, scaled: the value where the mask bit is set and zero elsewhere, times the constant. -/
def scaled (keep : IVec S1600000 1) (xvals : Vec Ideal S1600000 .f32) : Vec Ideal S1600000 .f32 :=
  mulf (select keep xvals (broadcastInDim S1600000 ![] bcast_S_S1600000 (constant (F := Ideal) S_ .f32 0x00000000#32)))
    (broadcastInDim S1600000 ![] bcast_S_S1600000 (constant (F := Ideal) S_ .f32 0x3F8E38E4#32))

/-! ## The three padded buffers as whole arrays

Each is the fold of the host operations read at its own buffer: every operation's result at its result buffer is its
function's value, and at any other buffer what was there before. -/

/-- The host operations' result in the column buffer: the column words padded by 5632 copies of the zero word. -/
theorem V_v4_eq (c : Dev nD) :
    (V m c main_v4 : S1605632.Idx → BitVec 32)
      = pad S1605632 ![0] ![5632] ![0] (m ((c : Thread nD τ).loc main_arg2)) (constantI S_ 32 0#32) pads_S1600000_S1605632_056320 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The host operations' result in the row buffer: the row words padded by 5632 copies of the word 100000. -/
theorem V_v5_eq (c : Dev nD) :
    (V m c main_v5 : S1605632.Idx → BitVec 32)
      = pad S1605632 ![0] ![5632] ![0] (m ((c : Thread nD τ).loc main_arg1)) (constantI S_ 32 100000#32) pads_S1600000_S1605632_056320 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The host operations' result in the value buffer: the scaled values padded by 5632 copies of the zero word
    converted to a real. -/
theorem V_v3_eq (c : Dev nD) :
    (V m c main_v3 : S1605632.Idx → EReal)
      = pad S1605632 ![0] ![5632] ![0] (scaled (m ((c : Thread nD τ).loc main_arg7)) (m ((c : Thread nD τ).loc main_arg0)))
          (sitofp (F := Ideal) .f32 (constantI S_ 32 0#32)) pads_S1600000_S1605632_056320 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-! ## A padded vector read at an index -/

/-- A vector of 1600000 entries padded at its end to 1605632 entries: the vector's entry below 1600000, the padding
    value from there on. -/
theorem pad_tail_apply {α : Type} (x : S1600000.Idx → α) (v : S_.Idx → α) (i : Fin 1605632) :
    pad S1605632 ![0] ![5632] ![0] x v pads_S1600000_S1605632_056320 h_S_ (ix1 i)
      = if h : i.val < 1600000 then x (ix1 (⟨i.val, h⟩ : Fin 1600000)) else v (Shape.Idx.first h_S_) := by
  by_cases h : i.val < 1600000
  · rw [dif_pos h]
    refine pad_apply_of_inside _ _ _ x v _ _ (ix1 i) (ix1 (⟨i.val, h⟩ : Fin 1600000)) (fun a => ?_)
    match a with
    | ⟨0, _⟩ => show i.val = 0 + i.val * (0 + 1); omega
  · rw [dif_neg h]
    refine pad_apply_of_not_inside _ _ _ x v _ _ (ix1 i) (0 : Fin 1) (fun hh => h ?_)
    have h3 : (i.val - 0) / (0 + 1) < 1600000 := hh.2.2
    omega

/-! ## The buffers read at an index -/

/-- The padded scaled values: the scaled value below 1600000, zero from there on. -/
theorem V_v3_apply (c : Dev nD) (i : Fin 1605632) :
    (V m c main_v3 : S1605632.Idx → EReal) (ix1 i)
      = if h : i.val < 1600000 then
          scaled (m ((c : Thread nD τ).loc main_arg7)) (m ((c : Thread nD τ).loc main_arg0)) (ix1 (⟨i.val, h⟩ : Fin 1600000))
        else 0 := by
  rw [V_v3_eq, pad_tail_apply]
  by_cases h : i.val < 1600000
  · rw [dif_pos h, dif_pos h]
  · -- the padding value is the zero word converted to a real: the integer 0 as a real
    rw [dif_neg h, dif_neg h, sitofp_apply]
    show (((0#32 : BitVec 32).toInt : ℝ) : EReal) = 0
    rw [BitVec.toInt_zero, Int.cast_zero, EReal.coe_zero]

/-- The padded column words: the word below 1600000, the zero word from there on. -/
theorem V_v4_apply (c : Dev nD) (i : Fin 1605632) :
    (V m c main_v4 : S1605632.Idx → BitVec 32) (ix1 i)
      = if h : i.val < 1600000 then (m ((c : Thread nD τ).loc main_arg2) : S1600000.Idx → BitVec 32) (ix1 (⟨i.val, h⟩ : Fin 1600000))
        else 0#32 := by
  rw [V_v4_eq, pad_tail_apply]
  rfl

/-- The padded row words: the word below 1600000, the word 100000 from there on. -/
theorem V_v5_apply (c : Dev nD) (i : Fin 1605632) :
    (V m c main_v5 : S1605632.Idx → BitVec 32) (ix1 i)
      = if h : i.val < 1600000 then (m ((c : Thread nD τ).loc main_arg1) : S1600000.Idx → BitVec 32) (ix1 (⟨i.val, h⟩ : Fin 1600000))
        else 100000#32 := by
  rw [V_v5_eq, pad_tail_apply]
  rfl

/-- The re-typed table is the table. -/
theorem V_v6_eq (c : Dev nD) :
    (V m c main_v6 : S256x64.Idx → EReal) = (m ((c : Thread nD τ).loc main_arg6) : S256x64.Idx → EReal) := by
  -- the narrowing of the number format is the identity on extended reals
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Cert.KernelIdeal.Rows

end
-- ==== Proof.OneHotRows.lean ====
/-
  The kernel body's value at an index.

  A grid point's body takes a block of 16384 scaled values `x0`, the block of their 16384 column words `x1`, and the
  two 128-row halves `w0`, `w1` of the 256 x 64 table. For each half it builds the 16384 x 128 matrix whose entry
  `(i, l)` is one where the column word of row `i` is the half's row number `l` (plus 128 for the second half) and zero
  elsewhere, multiplies it by the half, and adds the two products: row `i` of the sum is the table's row named by the
  word, or the zero row when the word names none of the 256 rows. That row is then scaled by `x0 i`, and the
  16384 x 64 result is stored as 8192 x 128 in the same row-major order.
-/
import proofs.«403709_j24644522344646_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen

/-- Row `cw` of the table given as its two halves, at column `j`; zero when `cw` is no row number below 256. -/
def halfRow (w0 w1 : Vec Ideal S128x64 .bf16) (cw : BitVec 32) (j : Fin 64) : EReal :=
  if h : cw.toNat < 128 then w0 (ix2 (⟨cw.toNat, h⟩ : Fin 128) j)
  else if h' : cw.toNat < 256 then w1 (ix2 (⟨cw.toNat - 128, by omega⟩ : Fin 128) j)
  else 0

/-- The left operand's row coordinate is the output's row. -/
theorem lhs_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide),
    dif_pos (show (0 : Fin S16384x128.rank) ∈ dot_S16384x128_S128x64_S16384x64_1_0_0_1_n_n.lhsNonContracting by decide)]
  rfl

/-- The left operand's column coordinate is the contracted position. -/
theorem lhs_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q

/-- The right operand's row coordinate is the contracted position. -/
theorem rhs_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q

/-- The right operand's column coordinate is the output's column. -/
theorem rhs_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide),
    dif_pos (show (1 : Fin S128x64.rank) ∈ dot_S16384x128_S128x64_S16384x64_1_0_0_1_n_n.rhsNonContracting by decide)]
  rfl

/-- The product into the zero accumulator, at (i, j): the sum over the 128 contracted positions of the left
    operand at (i, l) times the right operand at (l, j). -/
theorem matmul_apply_ix (A : FVec Ideal S16384x128 .bf16) (B : FVec Ideal S128x64 .bf16) (i : Fin 16384) (j : Fin 64) :
    matmul dot_S16384x128_S128x64_S16384x64_1_0_0_1_n_n none A B (constant (F := Ideal) S16384x64 .f32 0x00000000#32) (ix2 i j)
      = ∑ l : Fin 128, A (ix2 i l) * B (ix2 l j) := by
  simp only [matmul]
  rw [Ideal.matmul_constant_zero_apply,
    ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 i j)
      ((contrEquiv1 dot_S16384x128_S128x64_S16384x64_1_0_0_1_n_n 128 rfl rfl).symm k) = ix2 i k :=
    funext fun a => Fin.ext (by
      match a with
      | ⟨0, _⟩ => exact lhs_0 _ _
      | ⟨1, _⟩ => exact (lhs_1 _ _).trans hk)
  have er : dot_S16384x128_S128x64_S16384x64_1_0_0_1_n_n.rhsIdx (ix2 i j)
      ((contrEquiv1 dot_S16384x128_S128x64_S16384x64_1_0_0_1_n_n 128 rfl rfl).symm k) = ix2 k j :=
    funext fun a => Fin.ext (by
      match a with
      | ⟨0, _⟩ => exact (rhs_0 _ _).trans hk
      | ⟨1, _⟩ => exact rhs_1 _ _)
  rw [el, er]

/-- The one-hot matrix of the half that starts at row number k: entry (i, l) is one when the word of row i is
    l + k and zero otherwise. -/
def onehot (k : BitVec 32) (x1 : Vec Ideal S16384 .i32) : FVec Ideal S16384x128 .bf16 :=
  truncf .bf16 (sitofp .f32 (extui 32 (cmpi .eq
    (addi (iota .tc S16384x128 32 [1] iota_S16384x128_d1_w32) (broadcast S16384x128 k))
    (broadcastTo S16384x128 (shapeCast S16384x1 (shapeCast S16384 x1 shapeCasts_S16384_S16384) shapeCasts_S16384_S16384x1)
      broadcasts_S16384x1_S16384x128)) natLt_1_32)) bitsLt_bf16_f32

/-- A column of 16384 entries spread along a second axis reads, at (i, c), the entry of row i. -/
theorem column_apply {α : Type} {n : Nat} (v : S16384.Idx → α) (h : S16384x1.Broadcasts (⟨2, ![16384, n]⟩ : Shape))
    (i : Fin 16384) (c : Fin n) :
    broadcastTo (⟨2, ![16384, n]⟩ : Shape) (shapeCast S16384x1 (shapeCast S16384 v shapeCasts_S16384_S16384) shapeCasts_S16384_S16384x1) h (ix2 i c)
      = v (ix1 i) := by
  rw [broadcastTo_apply _ h (ix2 i c) (ix2 i (0 : Fin 1)) (by
        intro a
        match a with
        | ⟨0, _⟩ => rfl
        | ⟨1, _⟩ => rfl),
    shapeCast_apply _ shapeCasts_S16384_S16384x1 (ix2 i (0 : Fin 1)) (ix1 i) (by
        rw [Shape.rowMajor_val_two, Shape.rowMajor_val_one]
        show i.val = i.val * 1 + 0
        omega),
    shapeCast_self]

/-- The set bit widened to 32 bits is the integer one. -/
theorem toInt_bit_true : ((BitVec.ofBool true).setWidth 32).toInt = 1 := by decide

/-- The cleared bit widened to 32 bits is the integer zero. -/
theorem toInt_bit_false : ((BitVec.ofBool false).setWidth 32).toInt = 0 := by decide

/-- Entry (i, l) of the one-hot matrix: one when the 32-bit sum l + k is the word of row i, zero otherwise. -/
theorem onehot_apply (k : BitVec 32) (x1 : Vec Ideal S16384 .i32) (i : Fin 16384) (l : Fin 128) :
    onehot k x1 (ix2 i l) = if BitVec.ofNat 32 l.val + k = x1 (ix1 i) then 1 else 0 := by
  show FloatOps.sitofp (F := Ideal) .f32 ((IntOp.cmpi .eq
      (IntOp.addi (iota .tc S16384x128 32 [1] iota_S16384x128_d1_w32 (ix2 i l)) k)
      (broadcastTo S16384x128 (shapeCast S16384x1 (shapeCast S16384 x1 shapeCasts_S16384_S16384) shapeCasts_S16384_S16384x1)
        broadcasts_S16384x1_S16384x128 (ix2 i l))).setWidth 32) = _
  rw [iota_single_apply, column_apply]
  show (((((BitVec.ofBool (BitVec.ofNat 32 l.val + k == x1 (ix1 i))).setWidth 32).toInt : ℝ)) : EReal) = _
  by_cases h : BitVec.ofNat 32 l.val + k = x1 (ix1 i)
  · rw [if_pos h, beq_iff_eq.mpr h, toInt_bit_true, Int.cast_one, EReal.coe_one]
  · rw [if_neg h, beq_eq_false_iff_ne.mpr h, toInt_bit_false, Int.cast_zero, EReal.coe_zero]

/-- For a row number l below 128 and a half starting at kn, the 32-bit sum l + kn is the word exactly when the
    natural sum is the word's value: nothing wraps. -/
theorem word_eq_iff (kn : Nat) (hk : kn + 128 ≤ 4294967296) (cw : BitVec 32) (l : Fin 128) :
    BitVec.ofNat 32 l.val + BitVec.ofNat 32 kn = cw ↔ l.val + kn = cw.toNat := by
  have hl := l.isLt
  rw [← BitVec.toNat_inj, BitVec.toNat_add, BitVec.toNat_ofNat, BitVec.toNat_ofNat]
  omega

/-- Row i of the one-hot matrix of the half starting at kn, times that half: the half's row named by the word of
    row i when the word falls in the half, the zero row otherwise. -/
theorem onehot_row (kn : Nat) (hk : kn + 128 ≤ 4294967296) (x1 : Vec Ideal S16384 .i32) (w : FVec Ideal S128x64 .bf16)
    (i : Fin 16384) (j : Fin 64) :
    ∑ l : Fin 128, onehot (BitVec.ofNat 32 kn) x1 (ix2 i l) * w (ix2 l j)
      = if h : kn ≤ (x1 (ix1 i)).toNat ∧ (x1 (ix1 i)).toNat < kn + 128 then
          w (ix2 (⟨(x1 (ix1 i)).toNat - kn, by omega⟩ : Fin 128) j)
        else 0 := by
  simp only [onehot_apply, word_eq_iff kn hk]
  by_cases h : kn ≤ (x1 (ix1 i)).toNat ∧ (x1 (ix1 i)).toNat < kn + 128
  · rw [dif_pos h, Finset.sum_eq_single (⟨(x1 (ix1 i)).toNat - kn, by omega⟩ : Fin 128)]
    · rw [if_pos (by show (x1 (ix1 i)).toNat - kn + kn = (x1 (ix1 i)).toNat; omega), one_mul]
    · intro l _ hne
      rw [if_neg (by
        intro e
        apply hne
        apply Fin.ext
        show l.val = (x1 (ix1 i)).toNat - kn
        omega), zero_mul]
    · intro hn
      exact absurd (Finset.mem_univ _) hn
  · rw [dif_neg h]
    refine Finset.sum_eq_zero fun l _ => ?_
    rw [if_neg (by
      intro e
      apply h
      have := l.isLt
      omega), zero_mul]

/-- The two halves' rows added: the table's row. -/
theorem halves_add (w0 w1 : Vec Ideal S128x64 .bf16) (cw : BitVec 32) (j : Fin 64) :
    (0 : EReal)
      + (if h : 0 ≤ cw.toNat ∧ cw.toNat < 0 + 128 then w0 (ix2 (⟨cw.toNat - 0, by omega⟩ : Fin 128) j) else 0)
      + (if h : 128 ≤ cw.toNat ∧ cw.toNat < 128 + 128 then w1 (ix2 (⟨cw.toNat - 128, by omega⟩ : Fin 128) j) else 0)
      = halfRow w0 w1 cw j := by
  unfold halfRow
  by_cases h1 : cw.toNat < 128
  · rw [dif_pos ⟨Nat.zero_le _, by omega⟩, dif_neg (by omega), dif_pos h1, zero_add, add_zero]
    rfl
  · by_cases h2 : cw.toNat < 256
    · rw [dif_neg (by omega), dif_pos ⟨by omega, by omega⟩, dif_neg h1, dif_pos h2, zero_add, zero_add]
    · rw [dif_neg (by omega), dif_neg (by omega), dif_neg h1, dif_neg h2, zero_add, zero_add]

/-- The stored block at `(p, q)`, the row-major position of `(i, j)` in 16384 x 64: the table row named by row `i`'s
    word, at column `j`, times row `i`'s value. -/
theorem pay_apply (x0 : Vec Ideal S16384 .f32) (x1 : Vec Ideal S16384 .i32) (w0 w1 : Vec Ideal S128x64 .bf16)
    (i : Fin 16384) (j : Fin 64) (p : Fin 8192) (q : Fin 128) (hpq : p.val * 128 + q.val = i.val * 64 + j.val) :
    k0_pay1 (F := Ideal) x0 x1 w0 w1 (ix2 p q) = halfRow w0 w1 (x1 (ix1 i)) j * x0 (ix1 i) := by
  -- the body written out: the two one-hot products added to the zero block, scaled by the column of values, recast
  have e : k0_pay1 (F := Ideal) x0 x1 w0 w1
      = shapeCast S8192x128
          (mulf
            (addf
              (addf (broadcast S16384x64 (Scalar.ofBits (F := Ideal) .f32 0x00000000#32))
                (matmul dot_S16384x128_S128x64_S16384x64_1_0_0_1_n_n none (onehot (BitVec.ofNat 32 0) x1)
                  (shapeCast S128x64 w0 shapeCasts_S128x64_S128x64) (constant (F := Ideal) S16384x64 .f32 0x00000000#32)))
              (matmul dot_S16384x128_S128x64_S16384x64_1_0_0_1_n_n none (onehot (BitVec.ofNat 32 128) x1)
                (shapeCast S128x64 w1 shapeCasts_S128x64_S128x64) (constant (F := Ideal) S16384x64 .f32 0x00000000#32)))
            (broadcastTo S16384x64 (shapeCast S16384x1 (shapeCast S16384 x0 shapeCasts_S16384_S16384) shapeCasts_S16384_S16384x1)
              broadcasts_S16384x1_S16384x64))
          shapeCasts_S16384x64_S8192x128 := rfl
  -- position (p, q) of 8192 x 128 and position (i, j) of 16384 x 64 are the same row-major place
  rw [e, shapeCast_apply _ shapeCasts_S16384x64_S8192x128 (ix2 p q) (ix2 i j) (by
      rw [Shape.rowMajor_val_two, Shape.rowMajor_val_two]
      show i.val * 64 + j.val = p.val * 128 + q.val
      omega)]
  -- each product's row i is the half's row named by the word, or zero; the first half starts at 0, the second at 128
  rw [mulf_apply, addf_apply, addf_apply, broadcast_apply, matmul_apply_ix, matmul_apply_ix, column_apply,
    shapeCast_self, shapeCast_self, onehot_row 0 (by omega), onehot_row 128 (by omega)]
  have z : Scalar.ofBits (F := Ideal) .f32 0x00000000#32 = (0 : EReal) := Ideal.ofBits_zero_f32
  rw [z, halves_add]

end Cert.KernelIdeal.Rows

end
-- ==== Proof.OutArray.lean ====
/-
  The region's output array.

  Grid point `t` of the 98 reads block `t` (16384 entries) of the scaled values and of the column words, and the whole
  256 x 64 table, and writes block `t` (8192 rows of 128) of the output. The output blocks tile the 802816 x 128
  array, so after the run the array is ONE function of the three input arrays: read as 1605632 x 64 in row-major
  order, its row `i` is the table row named by word `i` (zero when the word is no row number below 256) times value `i`.
-/
import proofs.«403709_j24644522344646_3_alg».proof.Proof.Gen.KernelIdeal.Frame
import proofs.«403709_j24644522344646_3_alg».proof.Proof.OneHotRows
import Idealize.ShloMosaic.Lib.ValueIdx
import Idealize.ShloMosaic.Lib.Pipeline.Value

noncomputable section

namespace Cert.KernelIdeal.Rows

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Row `cw` of the whole table at column `j`; zero when `cw` is no row number below 256. -/
def tableRow (wb : Vec Ideal S256x64 .bf16) (cw : BitVec 32) (j : Fin 64) : EReal :=
  if h : cw.toNat < 256 then wb (ix2 (⟨cw.toNat, h⟩ : Fin 256) j) else 0

/-- Entry `(i, j)` of the contributions: the table row named by word `i`, at column `j`, times value `i`. -/
def contrib (xv : Vec Ideal S1605632 .f32) (xc : Vec Ideal S1605632 .i32) (wb : Vec Ideal S256x64 .bf16)
    (i : Fin 1605632) (j : Fin 64) : EReal :=
  tableRow wb (xc (ix1 i)) j * xv (ix1 i)

/-- The contributions laid out 802816 x 128: entry `(p, q)` is contribution `(2 p + q / 64, q % 64)`. -/
def packed (xv : Vec Ideal S1605632 .f32) (xc : Vec Ideal S1605632 .i32) (wb : Vec Ideal S256x64 .bf16) :
    S802816x128.Idx → EReal :=
  fun y => contrib xv xc wb
    (⟨2 * (y 0).val + (y 1).val / 64, by have h0 := idx2_lt0 y; have h1 := idx2_lt1 y; omega⟩ : Fin 1605632)
    (⟨(y 1).val % 64, Nat.mod_lt _ (by decide)⟩ : Fin 64)

/-- The packed layout at the row-major position of `(i, j)`. -/
theorem packed_apply (xv : Vec Ideal S1605632 .f32) (xc : Vec Ideal S1605632 .i32) (wb : Vec Ideal S256x64 .bf16)
    (p : Fin 802816) (q : Fin 128) (i : Fin 1605632) (j : Fin 64) (h : p.val * 128 + q.val = i.val * 64 + j.val) :
    packed xv xc wb (ix2 p q) = contrib xv xc wb i j := by
  have hj := j.isLt
  have hq := q.isLt
  unfold packed
  show contrib xv xc wb ⟨2 * p.val + q.val / 64, _⟩ ⟨q.val % 64, _⟩ = contrib xv xc wb i j
  congr 1
  · exact Fin.ext (by show 2 * p.val + q.val / 64 = i.val; omega)
  · exact Fin.ext (by show q.val % 64 = j.val; omega)

/-- The zero offsets of a rank-1 and of a rank-2 block, as constant functions. -/
theorem zeros1 : (![0] : Fin 1 → Nat) = fun _ => 0 := funext fun a => by fin_cases a; rfl
theorem zeros2 : (![0, 0] : Fin 2 → Nat) = fun _ => 0 := funext fun a => by fin_cases a <;> rfl

/-- The table read through its two 128-row halves is the table read whole. -/
theorem halfRow_halves (wb : Vec Ideal S256x64 .bf16) (cw : BitVec 32) (j : Fin 64) :
    halfRow (View.ld wb r0_1) (View.ld wb r0_2) cw j = tableRow wb cw j := by
  unfold halfRow tableRow
  by_cases h : cw.toNat < 128
  · rw [dif_pos h, dif_pos (by omega)]
    show wb (r0_1.toLoadRect.idx (ix2 (⟨cw.toNat, h⟩ : Fin 128) j)) = wb (ix2 (⟨cw.toNat, _⟩ : Fin 256) j)
    congr 1
    funext a
    apply Fin.ext
    match a with
    | ⟨0, _⟩ => show 0 + 1 * cw.toNat = cw.toNat; omega
    | ⟨1, _⟩ => show 0 + 1 * j.val = j.val; omega
  · rw [dif_neg h]
    by_cases h' : cw.toNat < 256
    · rw [dif_pos h', dif_pos h']
      show wb (r0_2.toLoadRect.idx (ix2 (⟨cw.toNat - 128, _⟩ : Fin 128) j)) = wb (ix2 (⟨cw.toNat, _⟩ : Fin 256) j)
      congr 1
      funext a
      apply Fin.ext
      match a with
      | ⟨0, _⟩ => show 128 + 1 * (cw.toNat - 128) = cw.toNat; omega
      | ⟨1, _⟩ => show 0 + 1 * j.val = j.val; omega
    · rw [dif_neg h', dif_neg h']

/-- What the body leaves in the output block, entry by entry: at the row-major position of (i, j) the table row
    named by word i of the block, at column j, times value i of the block. -/
theorem out_block_apply (x0 : Vec Ideal S16384 .f32) (x1 : Vec Ideal S16384 .i32) (x2 : Vec Ideal S256x64 .bf16)
    (p : Fin 8192) (q : Fin 128) (i : Fin 16384) (j : Fin 64) (h : p.val * 128 + q.val = i.val * 64 + j.val) :
    out0_3 (F := Ideal) x0 x1 x2 (ix2 p q) = tableRow x2 (x1 (ix1 i)) j * x0 (ix1 i) := by
  unfold out0_3
  rw [View.canon_unit_zero zeros2]
  simp only [View.ld_unit_zero (S := S16384) zeros1]
  rw [pay_apply _ _ _ _ i j p q h, halfRow_halves]

/-- The windows' index maps, decided once over the 98 grid points: point t takes block t of the values and of the
    words, the one block of the table, and block (t, 0) of the output. -/
theorem block_indices : ∀ t : Fin cfg0.N, win0_0.index t (0 : Fin 1) = t.val ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry i of point t's block of values is entry 16384 t + i of the array of values. -/
theorem values_block (c : Dev nD) (t : Fin cfg0.N) (i : Fin 16384) (I : Fin 1605632) (h : I.val = t.val * 16384 + i.val) :
    (iblk m c 0 t : Vec Ideal S16384 .f32) (ix1 i) = (V m c main_v3 : S1605632.Idx → EReal) (ix1 I) := by
  obtain ⟨e0, -, -, -, -, -⟩ := block_indices t
  show V m c main_v3 (((cfg0.win 0).blk t).view.emb (ix1 i)) = V m c main_v3 (ix1 I)
  refine congrArg (V m c main_v3) (funext fun a => Fin.ext ?_)
  match a with
  | ⟨0, _⟩ => show win0_0.index t (0 : Fin 1) * 16384 + 1 * i.val = I.val; omega

/-- Entry i of point t's block of words is entry 16384 t + i of the array of words. -/
theorem words_block (c : Dev nD) (t : Fin cfg0.N) (i : Fin 16384) (I : Fin 1605632) (h : I.val = t.val * 16384 + i.val) :
    (iblk m c 1 t : Vec Ideal S16384 .i32) (ix1 i) = (V m c main_v4 : S1605632.Idx → BitVec 32) (ix1 I) := by
  obtain ⟨-, e1, -, -, -, -⟩ := block_indices t
  show V m c main_v4 (((cfg0.win 1).blk t).view.emb (ix1 i)) = V m c main_v4 (ix1 I)
  refine congrArg (V m c main_v4) (funext fun a => Fin.ext ?_)
  match a with
  | ⟨0, _⟩ => show win0_1.index t (0 : Fin 1) * 16384 + 1 * i.val = I.val; omega

/-- Every point's block of the table is the whole table. -/
theorem table_block (c : Dev nD) (t : Fin cfg0.N) :
    (iblk m c 2 t : Vec Ideal S256x64 .bf16) = (V m c main_v6 : S256x64.Idx → EReal) := by
  obtain ⟨-, -, e2, e3, -, -⟩ := block_indices t
  funext y
  show V m c main_v6 (((cfg0.win 2).blk t).view.emb y) = V m c main_v6 y
  refine congrArg (V m c main_v6) (funext fun a => Fin.ext ?_)
  match a with
  | ⟨0, _⟩ => show win0_2.index t (0 : Fin 2) * 256 + 1 * (y 0).val = (y 0).val; omega
  | ⟨1, _⟩ => show win0_2.index t (1 : Fin 2) * 64 + 1 * (y 1).val = (y 1).val; omega

/-- WHAT POINT t WRITES BACK is block t of the packed contributions of the three input arrays. -/
theorem point_writes_packed_block (c : Dev nD) (t : Fin cfg0.N) :
    (dats m 0 c).flushed 3 t
      = ((cfg0.win 3).blk t).view.read (Elt Ideal) (packed (V m c main_v3) (V m c main_v4) (V m c main_v6)) := by
  show (cfg0.win 3).cut (grid0.coords t) ((dats m 0 c).after 3 t) = _
  rw [after0_3]
  have ht : t.val < 98 := lt_of_lt_of_eq t.isLt N_0
  obtain ⟨-, -, -, -, e4, e5⟩ := block_indices t
  funext y
  obtain ⟨p, q, rfl⟩ : ∃ (p : Fin 8192) (q : Fin 128), y = ix2 p q := ⟨y 0, y 1, eq_ix2 y⟩
  have hp := p.isLt
  have hq := q.isLt
  show out0_3 (iblk m c 0 t) (iblk m c 1 t) (iblk m c 2 t) (ix2 p q)
    = packed (V m c main_v3) (V m c main_v4) (V m c main_v6) (((cfg0.win 3).blk t).view.emb (ix2 p q))
  have he : ((cfg0.win 3).blk t).view.emb (ix2 p q)
      = (ix2 (⟨t.val * 8192 + p.val, by omega⟩ : Fin 802816) q : S802816x128.Idx) := by
    funext a
    apply Fin.ext
    match a with
    | ⟨0, _⟩ => show win0_3.index t (0 : Fin 2) * 8192 + 1 * p.val = t.val * 8192 + p.val; omega
    | ⟨1, _⟩ => show win0_3.index t (1 : Fin 2) * 128 + 1 * q.val = q.val; omega
  rw [he, packed_apply _ _ _ _ q (⟨t.val * 16384 + (2 * p.val + q.val / 64), by omega⟩ : Fin 1605632)
    (⟨q.val % 64, Nat.mod_lt _ (by decide)⟩ : Fin 64) (by
      show (t.val * 8192 + p.val) * 128 + q.val = (t.val * 16384 + (2 * p.val + q.val / 64)) * 64 + q.val % 64
      omega)]
  refine (out_block_apply (iblk m c 0 t) (iblk m c 1 t) (iblk m c 2 t) p q
    (⟨2 * p.val + q.val / 64, by omega⟩ : Fin 16384) (⟨q.val % 64, Nat.mod_lt _ (by decide)⟩ : Fin 64) (by
      show p.val * 128 + q.val = (2 * p.val + q.val / 64) * 64 + q.val % 64
      omega)).trans ?_
  unfold contrib
  rw [table_block m c t,
    words_block m c t (⟨2 * p.val + q.val / 64, by omega⟩ : Fin 16384)
      (⟨t.val * 16384 + (2 * p.val + q.val / 64), by omega⟩ : Fin 1605632) rfl,
    values_block m c t (⟨2 * p.val + q.val / 64, by omega⟩ : Fin 16384)
      (⟨t.val * 16384 + (2 * p.val + q.val / 64), by omega⟩ : Fin 1605632) rfl]

/-- An index of the output array is in point t's block iff each coordinate is in the block's range on its axis. -/
theorem mem_out_block (t : Fin cfg0.N) (i : S802816x128.Idx) :
    i ∈ ((cfg0.win 3).blk t).view.set
      ↔ ∀ a : Fin 2, win0_3.index t a * S8192x128.size a ≤ (i a).val
          ∧ (i a).val < win0_3.index t a * S8192x128.size a + S8192x128.size a := by
  show i ∈ ((View.whole main_v7).slice (win0_3.rect t)).set ↔ _
  rw [View.set_slice_whole, Rect.mem_set_unit]
  exact Iff.rfl

/-- The 98 blocks of 8192 rows tile the 802816 rows: row r is in the block of point r / 8192. -/
theorem out_covered (i : S802816x128.Idx) :
    ∃ t : Fin cfg0.N, (cfg0.win 3).flush t = true ∧ i ∈ ((cfg0.win 3).blk t).view.set := by
  have h0 := idx2_lt0 i
  have h1 := idx2_lt1 i
  have hN : (i 0).val / 8192 < cfg0.N := lt_of_lt_of_eq (by omega) N_0.symm
  refine ⟨⟨(i 0).val / 8192, hN⟩, flush0_3 _, ?_⟩
  obtain ⟨-, -, -, -, e4, e5⟩ := block_indices ⟨(i 0).val / 8192, hN⟩
  rw [mem_out_block]
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    rw [e4]
    show (i 0).val / 8192 * 8192 ≤ (i 0).val ∧ (i 0).val < (i 0).val / 8192 * 8192 + 8192
    omega
  | ⟨1, _⟩ =>
    show win0_3.index ⟨(i 0).val / 8192, hN⟩ (1 : Fin 2) * 128 ≤ (i 1).val
      ∧ (i 1).val < win0_3.index ⟨(i 0).val / 8192, hN⟩ (1 : Fin 2) * 128 + 128
    rw [e5]
    omega

/-- THE OUTPUT ARRAY after the run is the packed contributions of the three input arrays as the region finds them. -/
theorem out_array_eq (c : Dev nD) :
    (dats m 0 c).arrAt 3 cfg0.N = packed (V m c main_v3) (V m c main_v4) (V m c main_v6) :=
  (dats m 0 c).arrAt_eq_of_cover 3 (packed (V m c main_v3) (V m c main_v4) (V m c main_v6))
    (fun t _ => point_writes_packed_block m c t) out_covered

end Cert.KernelIdeal.Rows

end
-- ==== Proof.PreRanges.lean ====
/-
  What the precondition says of the two index arrays.

  The precondition's last two conjuncts are: every column word of the feature matrix, read signed, is at least 0 and
  below 256; every column word of the adjacency, read signed, is at least 0 and below 100000. Read unsigned, a word
  that is non-negative as a signed number is that number, so the words are below 256 and below 100000.
-/
import proofs.«403709_j24644522344646_3_alg».proof.Defs
import proofs.«403709_j24644522344646_3_alg».proof.Proof.Gen.KernelIdeal
import proofs.«403709_j24644522344646_3_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Rows

open Idealize.ShloMosaic Idealize.ShloMosaic.TcCoe Idealize.ShloMosaic.ValueIdx Idealize.SL.Sem
open Cert.KernelIdeal

variable (m : (ℓ : Loc nD τ sig) → Buf (Elt Ideal) ℓ)

/-- A 32-bit word whose signed reading is at least that of the word 0 and below that of the word `n`
    (`n` below 2³¹, so that the word `n` reads `n` signed) reads, unsigned, below `n`: a signed reading that
    is not negative is the unsigned one. -/
private theorem toNat_lt_of_signed (x : BitVec 32) (n : Nat) (hn : n < 2 ^ 31)
    (h0 : (0#32 : BitVec 32).toInt ≤ x.toInt) (h1 : x.toInt < (BitVec.ofNat 32 n).toInt) : x.toNat < n := by
  have hx : x.toNat < 2 ^ 32 := x.isLt
  have z : (0#32 : BitVec 32).toInt = 0 := by decide
  have zn : (BitVec.ofNat 32 n).toInt = (n : Int) := by
    rw [BitVec.toInt_eq_toNat_of_lt (by rw [BitVec.toNat_ofNat]; omega), BitVec.toNat_ofNat]
    congr 1; omega
  rw [z] at h0
  rw [zn] at h1
  rw [BitVec.toInt_eq_toNat_cond] at h0 h1
  split at h0 <;> omega

/-- Every column word of the feature matrix names one of the table's 256 rows. -/
theorem xcols_lt (hpre : Cert.Pre_KernelIdeal m) (c : Dev nD) (i : Fin 1600000) :
    ((m ((c : Thread nD τ).loc main_arg2) : S1600000.Idx → BitVec 32) (ix1 i)).toNat < 256 := by
  haveI : Subsingleton Cert.Pre_finite_inputs.S_.Idx := ⟨fun a b => funext fun d => d.elim0⟩
  -- the precondition's one word, with its operations in view
  have h := congrFun (hpre c) ValueIdx.ix0
  dsimp only [Cert.Pre_finite_inputs.fn, Cert.Pre_finite_inputs.fn_part1] at h
  -- (finiteness ∧ feature columns in range) ∧ adjacency columns in range: keep the middle conjunct
  obtain ⟨h20, _⟩ := IntOp.andi_eq_one.1 h
  obtain ⟨_, h19⟩ := IntOp.andi_eq_one.1 h20
  -- the conjunction over all positions holds at position i, and there it is 0 ≤ word ∧ word < 256, read signed
  obtain ⟨hge, hlt⟩ := IntOp.andi_eq_one.1 (Host.reduce_andi_all _ _ _ _ _ h19 (ix1 i))
  exact toNat_lt_of_signed _ 256 (by norm_num) (IntOp.cmpi_sge.1 hge) (IntOp.cmpi_slt.1 hlt)

/-- Every column word of the adjacency names one of the 100000 nodes. -/
theorem acols_lt (hpre : Cert.Pre_KernelIdeal m) (c : Dev nD) (e : Fin 3200000) :
    ((m ((c : Thread nD τ).loc main_arg5) : S3200000.Idx → BitVec 32) (ix1 e)).toNat < 100000 := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1] at h
  -- the last conjunct is the one on the adjacency's columns
  obtain ⟨_, h26⟩ := IntOp.andi_eq_one.1 h
  -- at position e it is 0 ≤ word ∧ word < 100000, read signed
  obtain ⟨hge, hlt⟩ := IntOp.andi_eq_one.1 (Host.reduce_andi_all _ _ _ _ _ h26 (ix1 e))
  exact toNat_lt_of_signed _ 100000 (by norm_num) (IntOp.cmpi_sge.1 hge) (IntOp.cmpi_slt.1 hlt)

end Cert.KernelIdeal.Rows

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.Bridge.lean ====
/-
  The two places where the kernel's host code and the reference differ, joined.

  (1) The kernel takes rows of the hidden features with a fill value for a row number outside [0, 99999]; the reference
  gathers them with the row number clamped. Where every column word of the adjacency is a node number the fill is never
  read and the number is never clamped: the two are one array.
  (2) The kernel adds 1605632 contribution rows (the last 5632 of them sent to the extra row 100000) into 100001 rows
  and keeps the first 100000; the reference adds the 1600000 contribution rows into 100000 rows. A row word outside
  [0, 100000) contributes to neither; the word 100000 contributes to the row the kernel drops and to no row of the
  reference. Where every column word of the feature matrix is a row number of the table, contribution row `i` is in both
  the table row it names times the scaled value (the product's two factors in the other order). So the two hidden
  arrays are one array.
-/
import proofs.«403709_j24644522344646_3_alg».proof.Proof.Gen.KernelIdeal
import proofs.«403709_j24644522344646_3_alg».proof.Proof.Gen.ReferenceIdeal
import proofs.«403709_j24644522344646_3_alg».proof.Proof.LibRowIndex
import proofs.«403709_j24644522344646_3_alg».proof.Proof.HostTail
import proofs.«403709_j24644522344646_3_alg».proof.Proof.OutArray
import Idealize.ShloMosaic.Lib.ValueIdx
import Idealize.ShloMosaic.Lib.Pipeline.Value
import Idealize.ShloMosaic.Lib.Affine
import Idealize.ShloMosaic.PureOps.Reduce

noncomputable section

namespace Cert.KernelIdeal.Rows

open Idealize.ShloMosaic Idealize.ShloMosaic.ValueIdx Idealize.ShloMosaic.RowIndex
open Cert.KernelIdeal Cert.KernelIdeal.Gen

/-! ## Small readings -/

section Readings
variable {α : Type}
theorem column_read {n : Nat} (h : (⟨1, ![n]⟩ : Shape).BroadcastsInDim ⟨2, ![n, 1]⟩ ![0])
    (v : (⟨1, ![n]⟩ : Shape).Idx → α) (i : Fin n) (z : Fin 1) :
    broadcastInDim ⟨2, ![n, 1]⟩ ![0] h v (ix2 i z) = v (ix1 i) := by
  refine broadcastInDim_apply _ h v _ (ix1 i) fun a => ?_
  match a with
  | ⟨0, _⟩ =>
    show i.val = if n = 1 then 0 else i.val
    split
    · have := i.isLt; omega
    · rfl
theorem spread_read {n C : Nat} (h : (⟨2, ![n, 1]⟩ : Shape).BroadcastsInDim ⟨2, ![n, C]⟩ ![0, 1])
    (v : (⟨2, ![n, 1]⟩ : Shape).Idx → α) (i : Fin n) (j : Fin C) :
    broadcastInDim ⟨2, ![n, C]⟩ ![0, 1] h v (ix2 i j) = v (ix2 i (0 : Fin 1)) := by
  refine broadcastInDim_apply _ h v _ (ix2 i (0 : Fin 1)) fun a => ?_
  match a with
  | ⟨0, _⟩ =>
    show i.val = if n = 1 then 0 else i.val
    split
    · have := i.isLt; omega
    · rfl
  | ⟨1, _⟩ => rfl
theorem along_read {n C : Nat} (h : (⟨1, ![n]⟩ : Shape).BroadcastsInDim ⟨2, ![n, C]⟩ ![0])
    (v : (⟨1, ![n]⟩ : Shape).Idx → α) (i : Fin n) (j : Fin C) :
    broadcastInDim ⟨2, ![n, C]⟩ ![0] h v (ix2 i j) = v (ix1 i) := by
  refine broadcastInDim_apply _ h v _ (ix1 i) fun a => ?_
  match a with
  | ⟨0, _⟩ =>
    show i.val = if n = 1 then 0 else i.val
    split
    · have := i.isLt; omega
    · rfl
theorem splat_read {t : Shape} (h : (⟨0, ![]⟩ : Shape).BroadcastsInDim t ![]) (v : (⟨0, ![]⟩ : Shape).Idx → α) (j : t.Idx) :
    broadcastInDim t ![] h v j = v ix0 := by
  refine broadcastInDim_apply _ h v _ ix0 fun a => a.elim0
end Readings

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

theorem toInt_of_small {x : BitVec 32} (h : x.toNat < 2 ^ 31) : x.toInt = (x.toNat : Int) := by
  rw [BitVec.toInt_eq_toNat_cond]; split
  · rfl
  · omega

/-- A column word that is a node number is not moved. -/
theorem wrapped_apply (ac : IVec S3200000 32) (e : Fin 3200000) (z : Fin 1) (h : (ac (ix1 e)).toNat < 100000) :
    wrapped ac (ix2 e z) = ac (ix1 e) := by
  unfold wrapped
  rw [column_read]
  rw [select_apply]
  have hlt : cmpi .slt ac (broadcastInDim S3200000 ![] bcast_S_S3200000 (constantI S_ 32 0#32)) (ix1 e) = 0#1 := by
    show IntOp.cmpi .slt (ac (ix1 e)) _ = 0#1
    rw [splat_read]
    apply eq_zero_of_ne_one
    rw [IntOp.cmpi_slt, toInt_of_small (by omega)]
    show ¬ ((ac (ix1 e)).toNat : Int) < (0#32).toInt
    have : (0#32 : BitVec 32).toInt = 0 := by decide
    omega
  rw [hlt, select_zero]

/-- Where every column word is a node number, taking rows with a fill value is gathering them. -/
theorem taken_eq_gather (H : Vec Ideal S100000x64 .f32) (ac : IVec S3200000 32)
    (hac : ∀ e : Fin 3200000, (ac (ix1 e)).toNat < 100000) :
    taken H ac = Host.gather gather_S100000x64_S3200000x1_S3200000x64_1_0_n_n_0_1_164 H (wrapped ac) := by
  funext y
  obtain ⟨e, j, rfl⟩ : ∃ (e : Fin 3200000) (j : Fin 64), y = ix2 e j := ⟨y 0, y 1, eq_ix2 y⟩
  unfold taken
  rw [select_apply, along_read]
  have hones : ∀ i : S3200000x1.Idx,
      andi (cmpi .sge (wrapped ac) (broadcastInDim S3200000x1 ![] bcast_S_S3200000x1 (constantI S_ 32 0#32)))
        (cmpi .sle (wrapped ac)
          (broadcastInDim S3200000x1 ![0, 1] bcast_S1x1_S3200000x1_0_1
            (broadcastInDim S1x1 ![1] bcast_S1_S1x1_1 (constantI S1 32 99999#32)))) i = 1#1 := by
    intro i
    obtain ⟨e', z, rfl⟩ : ∃ (e' : Fin 3200000) (z : Fin 1), i = ix2 e' z := ⟨i 0, i 1, eq_ix2 i⟩
    show IntOp.andi (IntOp.cmpi .sge (wrapped ac (ix2 e' z)) 0#32) (IntOp.cmpi .sle (wrapped ac (ix2 e' z)) 99999#32) = 1#1
    have h := hac e'
    rw [wrapped_apply ac e' z h, IntOp.andi_eq_one, IntOp.cmpi_sge, IntOp.cmpi_sle, toInt_of_small (x := ac (ix1 e')) (by omega)]
    have h0 : (0#32 : BitVec 32).toInt = 0 := by decide
    have h1 : (99999#32 : BitVec 32).toInt = 99999 := by decide
    omega
  rw [reduce_andi_ones _ _ _ _ rfl hones]
  exact select_one _ _

/-! ## The kernel's hidden array, entry by entry -/

theorem hidden_step1 (xrp : IVec S1605632 32) (P : Vec Ideal S802816x128 .f32) (r : Fin 100000) (j : Fin 64) :
    hidden xrp P (ix2 r j)
      = Host.scatterAdd scatter_S100001x64_S1605632x1_S1605632x64_1_0_0_1
      (broadcastInDim S100001x64 ![] bcast_S_S100001x64 (constant (F := Ideal) S_ .f32 0x00000000#32))
      (broadcastInDim S1605632x1 ![0] bcast_S1605632_S1605632x1_0 xrp)
      (shapeCast S1605632x64 P shapeCasts_S802816x128_S1605632x64) (ix2 (⟨r.val, by have := r.isLt; omega⟩ : Fin 100001) j) := by
  unfold hidden
  refine extractStridedSlice_apply _ _ _ (ix2 r j) (ix2 (⟨r.val, by have := r.isLt; omega⟩ : Fin 100001) j) ?_
  intro a
  match a with
  | ⟨0, _⟩ => show r.val = 0 + r.val; omega
  | ⟨1, _⟩ => show j.val = 0 + j.val; omega

theorem scatterK_apply (Z : FVec Ideal S100001x64 .f32) (idx : IVec S1605632x1 32) (upd : FVec Ideal S1605632x64 .f32)
    (r' : Fin 100001) (j : Fin 64) :
    Host.scatterAdd scatter_S100001x64_S1605632x1_S1605632x64_1_0_0_1 Z idx upd (ix2 r' j)
      = Z (ix2 r' j) + ∑ i : Fin 1605632, if (idx (ix2 i (0 : Fin 1))).toInt = (r'.val : Int) then upd (ix2 i j) else 0 :=
  scatterAdd_rows_apply (R := 100001) (C := 64) (n := 1605632) (w := 32)
    scatter_S100001x64_S1605632x1_S1605632x64_1_0_0_1_wf Z idx upd r' j

/-- The output array read 1605632 x 64: entry `(i, j)` is entry `(i / 2, (i % 2) * 64 + j)`. -/
theorem reshape_read {α : Type} (P : S802816x128.Idx → α) (i : Fin 1605632) (j : Fin 64) :
    shapeCast S1605632x64 P shapeCasts_S802816x128_S1605632x64 (ix2 i j)
      = P (ix2 (⟨i.val / 2, by have := i.isLt; omega⟩ : Fin 802816) (⟨i.val % 2 * 64 + j.val, by have := j.isLt; omega⟩ : Fin 128)) := by
  refine shapeCast_apply P _ (ix2 i j) _ ?_
  rw [Shape.rowMajor_val_two, Shape.rowMajor_val_two]
  show i.val / 2 * 128 + (i.val % 2 * 64 + j.val) = i.val * 64 + j.val
  omega

theorem hidden_apply (xrp : IVec S1605632 32) (P : Vec Ideal S802816x128 .f32) (r : Fin 100000) (j : Fin 64) :
    hidden xrp P (ix2 r j)
      = Ideal.ofBits .f32 0x00000000#32 + ∑ i : Fin 1605632,
          if (xrp (ix1 i)).toInt = (r.val : Int) then
            P (ix2 (⟨i.val / 2, by have := i.isLt; omega⟩ : Fin 802816) (⟨i.val % 2 * 64 + j.val, by have := j.isLt; omega⟩ : Fin 128))
          else 0 := by
  rw [hidden_step1, scatterK_apply]
  refine congrArg₂ (· + ·) rfl (Finset.sum_congr rfl fun i _ => ?_)
  rw [column_read, reshape_read]

/-! ## The reference's hidden array, entry by entry -/

/-- A sum over 1605632 terms whose last 5632 are zero is the sum of the first 1600000. -/
theorem sum_pad {M : Type} [AddCommMonoid M] (f : Fin 1605632 → M) (hz : ∀ i : Fin 1605632, 1600000 ≤ i.val → f i = 0) :
    ∑ i, f i = ∑ i' : Fin 1600000, f (⟨i'.val, by have := i'.isLt; omega⟩ : Fin 1605632) := by
  have hle : 1600000 ≤ 1605632 := by decide
  rw [← Finset.sum_subset (Finset.subset_univ (Finset.univ.map (Fin.castLEEmb hle))) ?_, Finset.sum_map]
  · rfl
  · intro i _ hi
    apply hz
    by_contra hlt
    apply hi
    rw [Finset.mem_map]
    exact ⟨⟨i.val, by omega⟩, Finset.mem_univ _, Fin.ext rfl⟩

/-- The reference's hidden array: the contribution rows (scaled value times the gathered table row) added by the row words. -/
def refHidden (xr xc : IVec S1600000 32) (xs : FVec Ideal S1600000 .f32) (W : FVec Ideal S256x64 .f32) :
    FVec Ideal S100000x64 .f32 :=
  Host.scatterAdd Cert.ReferenceIdeal.scatter_S100000x64_S1600000x1_S1600000x64_1_0_0_1
    (broadcastInDim Cert.ReferenceIdeal.S100000x64 ![] Cert.ReferenceIdeal.Gen.bcast_S_S100000x64 (constant (F := Ideal) S_ .f32 0x00000000#32))
    (broadcastInDim Cert.ReferenceIdeal.S1600000x1 ![0] Cert.ReferenceIdeal.Gen.bcast_S1600000_S1600000x1_0 xr)
    (mulf (broadcastInDim Cert.ReferenceIdeal.S1600000x64 ![0, 1] Cert.ReferenceIdeal.Gen.bcast_S1600000x1_S1600000x64_0_1
        (broadcastInDim Cert.ReferenceIdeal.S1600000x1 ![0] Cert.ReferenceIdeal.Gen.bcast_S1600000_S1600000x1_0 xs))
      (Host.gather Cert.ReferenceIdeal.gather_S256x64_S1600000x1_S1600000x64_1_0_n_n_0_1_164 W
        (broadcastInDim Cert.ReferenceIdeal.S1600000x1 ![0] Cert.ReferenceIdeal.Gen.bcast_S1600000_S1600000x1_0
          (select (cmpi .slt xc (broadcastInDim S1600000 ![] Cert.ReferenceIdeal.Gen.bcast_S_S1600000 (constantI S_ 32 0#32)))
            (addi xc (broadcastInDim S1600000 ![] Cert.ReferenceIdeal.Gen.bcast_S_S1600000 (constantI S_ 32 256#32))) xc))))

theorem scatterR_apply (Z : FVec Ideal Cert.ReferenceIdeal.S100000x64 .f32) (idx : IVec Cert.ReferenceIdeal.S1600000x1 32)
    (upd : FVec Ideal Cert.ReferenceIdeal.S1600000x64 .f32) (r : Fin 100000) (j : Fin 64) :
    Host.scatterAdd Cert.ReferenceIdeal.scatter_S100000x64_S1600000x1_S1600000x64_1_0_0_1 Z idx upd (ix2 r j)
      = Z (ix2 r j) + ∑ i : Fin 1600000, if (idx (ix2 i (0 : Fin 1))).toInt = (r.val : Int) then upd (ix2 i j) else 0 :=
  scatterAdd_rows_apply (R := 100000) (C := 64) (n := 1600000) (w := 32)
    Cert.ReferenceIdeal.Gen.scatter_S100000x64_S1600000x1_S1600000x64_1_0_0_1_wf Z idx upd r j

theorem gatherR_apply (W : FVec Ideal S256x64 .f32) (idx : IVec Cert.ReferenceIdeal.S1600000x1 32) (i : Fin 1600000) (j : Fin 64) :
    Host.gather Cert.ReferenceIdeal.gather_S256x64_S1600000x1_S1600000x64_1_0_n_n_0_1_164 W idx (ix2 i j)
      = W (ix2 (⟨min (idx (ix2 i (0 : Fin 1))).toInt.toNat (256 - 1), by omega⟩ : Fin 256) j) :=
  gather_rows_apply (N := 256) (C := 64) (n := 1600000) (w := 32) (by decide)
    Cert.ReferenceIdeal.Gen.gather_S256x64_S1600000x1_S1600000x64_1_0_n_n_0_1_164_wf W idx i j

/-- The same with the row named: the gather reads row `k` when the clamped start is `k`. -/
theorem gatherR_at (W : FVec Ideal S256x64 .f32) (idx : IVec Cert.ReferenceIdeal.S1600000x1 32) (i : Fin 1600000) (j : Fin 64)
    (k : Fin 256) (hk : min (idx (ix2 i (0 : Fin 1))).toInt.toNat (256 - 1) = k.val) :
    Host.gather Cert.ReferenceIdeal.gather_S256x64_S1600000x1_S1600000x64_1_0_n_n_0_1_164 W idx (ix2 i j) = W (ix2 k j) := by
  rw [gatherR_apply]
  exact congrArg (fun t => W (ix2 t j)) (Fin.ext hk)

/-- A column word that is a table row number is not moved. -/
theorem cols_read (xc : IVec S1600000 32) (i : Fin 1600000) (h : (xc (ix1 i)).toNat < 256) :
    select (cmpi .slt xc (broadcastInDim S1600000 ![] Cert.ReferenceIdeal.Gen.bcast_S_S1600000 (constantI S_ 32 0#32)))
      (addi xc (broadcastInDim S1600000 ![] Cert.ReferenceIdeal.Gen.bcast_S_S1600000 (constantI S_ 32 256#32))) xc (ix1 i)
      = xc (ix1 i) := by
  rw [select_apply]
  have hlt : cmpi .slt xc (broadcastInDim S1600000 ![] Cert.ReferenceIdeal.Gen.bcast_S_S1600000 (constantI S_ 32 0#32)) (ix1 i) = 0#1 := by
    show IntOp.cmpi .slt (xc (ix1 i)) 0#32 = 0#1
    apply eq_zero_of_ne_one
    rw [IntOp.cmpi_slt, toInt_of_small (x := xc (ix1 i)) (by omega)]
    have : (0#32 : BitVec 32).toInt = 0 := by decide
    omega
  rw [hlt, select_zero]

theorem refHidden_apply (xr xc : IVec S1600000 32) (xs : FVec Ideal S1600000 .f32) (W : FVec Ideal S256x64 .f32)
    (hcols : ∀ i : Fin 1600000, (xc (ix1 i)).toNat < 256) (r : Fin 100000) (j : Fin 64) :
    refHidden xr xc xs W (ix2 r j)
      = Ideal.ofBits .f32 0x00000000#32 + ∑ i : Fin 1600000,
          if (xr (ix1 i)).toInt = (r.val : Int) then xs (ix1 i) * W (ix2 (⟨(xc (ix1 i)).toNat, hcols i⟩ : Fin 256) j) else 0 := by
  unfold refHidden
  rw [scatterR_apply]
  refine congrArg₂ (· + ·) rfl (Finset.sum_congr rfl fun i _ => ?_)
  rw [column_read, mulf_apply, spread_read, column_read]
  rw [gatherR_at W _ i j (⟨(xc (ix1 i)).toNat, hcols i⟩ : Fin 256)]
  have h := hcols i
  rw [column_read, cols_read xc i h, toInt_of_small (x := xc (ix1 i)) (by omega), Int.toNat_natCast]
  show min (xc (ix1 i)).toNat (256 - 1) = (xc (ix1 i)).toNat
  omega

/-! ## The two hidden arrays are one -/

/-- One contribution row below 1600000, on the kernel's side and on the reference's. -/
theorem row_term_eq
    (xr xc : IVec S1600000 32) (xs : FVec Ideal S1600000 .f32) (W : FVec Ideal S256x64 .f32)
    (xrp xcp : IVec S1605632 32) (xsp : Vec Ideal S1605632 .f32) (wb : Vec Ideal S256x64 .bf16)
    (hxr : ∀ i : Fin 1605632, xrp (ix1 i) = if h : i.val < 1600000 then xr (ix1 (⟨i.val, h⟩ : Fin 1600000)) else 100000#32)
    (hxc : ∀ i : Fin 1605632, xcp (ix1 i) = if h : i.val < 1600000 then xc (ix1 (⟨i.val, h⟩ : Fin 1600000)) else 0#32)
    (hxs : ∀ i : Fin 1605632, (xsp (ix1 i) : EReal) = if h : i.val < 1600000 then xs (ix1 (⟨i.val, h⟩ : Fin 1600000)) else 0)
    (hwb : ∀ y, (wb y : EReal) = W y)
    (hcols : ∀ i : Fin 1600000, (xc (ix1 i)).toNat < 256) (r : Fin 100000) (j : Fin 64) (i' : Fin 1600000)
    (i : Fin 1605632) (hi : i.val = i'.val) :
    (if (xrp (ix1 i)).toInt = (r.val : Int) then
        packed xsp xcp wb (ix2 (⟨i.val / 2, by have := i.isLt; omega⟩ : Fin 802816) (⟨i.val % 2 * 64 + j.val, by have := j.isLt; omega⟩ : Fin 128))
      else 0)
      = if (xr (ix1 i')).toInt = (r.val : Int) then xs (ix1 i') * W (ix2 (⟨(xc (ix1 i')).toNat, hcols i'⟩ : Fin 256) j) else 0 := by
  have hlt : i.val < 1600000 := by have := i'.isLt; omega
  have hii : (⟨i.val, hlt⟩ : Fin 1600000) = i' := Fin.ext hi
  have e1 : xrp (ix1 i) = xr (ix1 i') := by rw [hxr i, dif_pos hlt, hii]
  have e2 : xcp (ix1 i) = xc (ix1 i') := by rw [hxc i, dif_pos hlt, hii]
  have e3 : (xsp (ix1 i) : EReal) = xs (ix1 i') := by rw [hxs i, dif_pos hlt, hii]
  rw [e1, packed_apply xsp xcp wb _ _ i j (by show i.val / 2 * 128 + (i.val % 2 * 64 + j.val) = i.val * 64 + j.val; omega)]
  unfold contrib tableRow
  rw [e2, dif_pos (hcols i'), hwb, e3, mul_comm]

theorem hidden_eq
    (xr xc : IVec S1600000 32) (xs : FVec Ideal S1600000 .f32) (W : FVec Ideal S256x64 .f32)
    (xrp xcp : IVec S1605632 32) (xsp : Vec Ideal S1605632 .f32) (wb : Vec Ideal S256x64 .bf16)
    (hxr : ∀ i : Fin 1605632, xrp (ix1 i) = if h : i.val < 1600000 then xr (ix1 (⟨i.val, h⟩ : Fin 1600000)) else 100000#32)
    (hxc : ∀ i : Fin 1605632, xcp (ix1 i) = if h : i.val < 1600000 then xc (ix1 (⟨i.val, h⟩ : Fin 1600000)) else 0#32)
    (hxs : ∀ i : Fin 1605632, (xsp (ix1 i) : EReal) = if h : i.val < 1600000 then xs (ix1 (⟨i.val, h⟩ : Fin 1600000)) else 0)
    (hwb : ∀ y, (wb y : EReal) = W y)
    (hcols : ∀ i : Fin 1600000, (xc (ix1 i)).toNat < 256) :
    hidden xrp (packed xsp xcp wb) = refHidden xr xc xs W := by
  funext y
  obtain ⟨r, j, rfl⟩ : ∃ (r : Fin 100000) (j : Fin 64), y = ix2 r j := ⟨y 0, y 1, eq_ix2 y⟩
  rw [hidden_apply, refHidden_apply xr xc xs W hcols]
  refine congrArg (Ideal.ofBits .f32 0x00000000#32 + ·) ?_
  rw [sum_pad]
  · exact Finset.sum_congr rfl fun i' _ =>
      row_term_eq xr xc xs W xrp xcp xsp wb hxr hxc hxs hwb hcols r j i' _ rfl
  · intro i hi
    rw [hxr i, dif_neg (by omega)]
    have h100 : (100000#32 : BitVec 32).toInt = 100000 := by decide
    rw [if_neg]
    rw [h100]
    have := r.isLt
    omega

end Cert.KernelIdeal.Rows

end
-- ==== Proof.Joined.lean ====
/-
  The kernel's result and the reference's result are one array.

  After its run the kernel's result buffer holds the host tail's three functions of the output array; the output array
  is the packed contributions; under the precondition's two ranges the taken rows are the gathered rows and the hidden
  array is the reference's. What remains is, operation for operation, the reference's own term.
-/
import proofs.«403709_j24644522344646_3_alg».proof.Defs
import proofs.«403709_j24644522344646_3_alg».proof.Proof.Gen.KernelIdeal.Frame
import proofs.«403709_j24644522344646_3_alg».proof.Proof.Gen.ReferenceIdeal.Run
import proofs.«403709_j24644522344646_3_alg».proof.Proof.HostTail
import proofs.«403709_j24644522344646_3_alg».proof.Proof.HostPrefix
import proofs.«403709_j24644522344646_3_alg».proof.Proof.OutArray
import proofs.«403709_j24644522344646_3_alg».proof.Proof.PreRanges
import proofs.«403709_j24644522344646_3_alg».proof.Proof.Bridge

noncomputable section

namespace Cert.KernelIdeal.Rows

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The common result, as a function of the eight argument arrays: the reference's hidden array, its rows gathered by
    the adjacency's column words, scaled by the edge weights, added by the adjacency's row words, clamped at zero. -/
def result (a0 : FVec Ideal S1600000 .f32) (a1 a2 : IVec S1600000 32) (a3 : FVec Ideal S3200000 .f32)
    (a4 a5 : IVec S3200000 32) (a6 : FVec Ideal S256x64 .f32) (a7 : IVec S1600000 1) : FVec Ideal S100000x64 .f32 :=
  aggregated
    (Host.gather gather_S100000x64_S3200000x1_S3200000x64_1_0_n_n_0_1_164 (refHidden a1 a2 (scaled a7 a0) a6) (wrapped a5))
    a3 a4

/-- The reference's run term is that function of the arguments. -/
theorem ref_term_eq (a0 : FVec Ideal S1600000 .f32) (a1 a2 : IVec S1600000 32) (a3 : FVec Ideal S3200000 .f32)
    (a4 a5 : IVec S3200000 32) (a6 : FVec Ideal S256x64 .f32) (a7 : IVec S1600000 1) :
    maximumf (Host.scatterAdd Cert.ReferenceIdeal.scatter_S100000x64_S3200000x1_S3200000x64_1_0_0_1 (broadcastInDim Cert.ReferenceIdeal.S100000x64 ![] Cert.ReferenceIdeal.Gen.bcast_S_S100000x64 (constant (F := Ideal) Cert.ReferenceIdeal.S_ .f32 0x00000000#32)) (broadcastInDim Cert.ReferenceIdeal.S3200000x1 ![0] Cert.ReferenceIdeal.Gen.bcast_S3200000_S3200000x1_0 a4) (mulf (broadcastInDim Cert.ReferenceIdeal.S3200000x64 ![0, 1] Cert.ReferenceIdeal.Gen.bcast_S3200000x1_S3200000x64_0_1 (broadcastInDim Cert.ReferenceIdeal.S3200000x1 ![0] Cert.ReferenceIdeal.Gen.bcast_S3200000_S3200000x1_0 a3)) (Host.gather Cert.ReferenceIdeal.gather_S100000x64_S3200000x1_S3200000x64_1_0_n_n_0_1_164 (Host.scatterAdd Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (broadcastInDim Cert.ReferenceIdeal.S1600000x1 ![0] Cert.ReferenceIdeal.Gen.bcast_S1600000_S1600000x1_0 a1) (mulf (broadcastInDim Cert.ReferenceIdeal.S1600000x64 ![0, 1] Cert.ReferenceIdeal.Gen.bcast_S1600000x1_S1600000x64_0_1 (broadcastInDim Cert.ReferenceIdeal.S1600000x1 ![0] Cert.ReferenceIdeal.Gen.bcast_S1600000_S1600000x1_0 (mulf (select a7 a0 (broadcastInDim Cert.ReferenceIdeal.S1600000 ![] Cert.ReferenceIdeal.Gen.bcast_S_S1600000 (constant (F := Ideal) Cert.ReferenceIdeal.S_ .f32 0x00000000#32))) (broadcastInDim Cert.ReferenceIdeal.S1600000 ![] Cert.ReferenceIdeal.Gen.bcast_S_S1600000 (constant (F := Ideal) Cert.ReferenceIdeal.S_ .f32 0x3F8E38E4#32))))) (Host.gather Cert.ReferenceIdeal.gather_S256x64_S1600000x1_S1600000x64_1_0_n_n_0_1_164 a6 (broadcastInDim Cert.ReferenceIdeal.S1600000x1 ![0] Cert.ReferenceIdeal.Gen.bcast_S1600000_S1600000x1_0 (select (cmpi .slt a2 (broadcastInDim Cert.ReferenceIdeal.S1600000 ![] Cert.ReferenceIdeal.Gen.bcast_S_S1600000 (constantI Cert.ReferenceIdeal.S_ 32 0#32))) (addi a2 (broadcastInDim Cert.ReferenceIdeal.S1600000 ![] Cert.ReferenceIdeal.Gen.bcast_S_S1600000 (constantI Cert.ReferenceIdeal.S_ 32 256#32))) a2))))) (broadcastInDim Cert.ReferenceIdeal.S3200000x1 ![0] Cert.ReferenceIdeal.Gen.bcast_S3200000_S3200000x1_0 (select (cmpi .slt a5 (broadcastInDim Cert.ReferenceIdeal.S3200000 ![] Cert.ReferenceIdeal.Gen.bcast_S_S3200000 (constantI Cert.ReferenceIdeal.S_ 32 0#32))) (addi a5 (broadcastInDim Cert.ReferenceIdeal.S3200000 ![] Cert.ReferenceIdeal.Gen.bcast_S_S3200000 (constantI Cert.ReferenceIdeal.S_ 32 100000#32))) a5))))) (broadcastInDim Cert.ReferenceIdeal.S100000x64 ![] Cert.ReferenceIdeal.Gen.bcast_S_S100000x64 (constant (F := Ideal) Cert.ReferenceIdeal.S_ .f32 0x00000000#32))
      = result a0 a1 a2 a3 a4 a5 a6 a7 := rfl

/-- THE KERNEL'S RESULT BUFFER after the run, under the precondition. -/
theorem kernel_value (hpre : Cert.Pre_KernelIdeal m) (c : Dev nD) :
    (Pipeline.afterTail₀ cfgs (dats m) 0 (V0 m) [hostOps1, hostOps1_1, hostOps1_2, hostOps1_3] c main_v20
        : S100000x64.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [tail_eq, out_array_eq, taken_eq_gather _ _ (acols_lt m hpre c),
    hidden_eq (m ((c : Thread nD τ).loc main_arg1)) (m ((c : Thread nD τ).loc main_arg2)) (scaled (m ((c : Thread nD τ).loc main_arg7)) (m ((c : Thread nD τ).loc main_arg0))) (m ((c : Thread nD τ).loc main_arg6)) _ _ _ _
      (V_v5_apply m c) (V_v4_apply m c) (V_v3_apply m c) (congrFun (V_v6_eq m c)) (xcols_lt m hpre c)]
  rfl

/-- THE KERNEL'S RUN under the precondition: every weakly fair execution terminates with the result buffer at the common
    result of the arguments as launched, and the arguments unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v20 (Pipeline.mem_restRefs_of main_v20 (by decide) (by decide))).trans (kernel_value m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Rows

end
-- ==== Proof.lean ====
/-
  Two sparse products, one after the other, against their plain reference.

  The kernel's program scales the retained feature values, and for each of the 1600000 stored entries multiplies the
  row of the 256 x 64 table named by the entry's column word by the scaled value (a Pallas region over 98 blocks, the
  table row picked by a product with a matrix of zeros and ones); it adds those rows by the entries' row words into the
  hidden features, gathers hidden rows by the adjacency's column words, scales them by the edge weights, adds them by
  the adjacency's row words, and clamps at zero. The reference does the same with a gather in the region's place.
  The two differ in three places, none of which matters on the stated domain: the kernel pads its 1600000 entries to
  1605632 and sends the padding to an extra row it then drops; a column word that is no table row gives the kernel a
  zero row and the reference a clamped one (the precondition says every word is a table row); a column word of the
  adjacency that is no node gives the kernel a fill value and the reference a clamped row (the precondition says every
  word is a node). At the ideal instance the re-typing of the table is the identity and both products are exact, so on
  that domain the two results are one array: the kernel's run ends at it (the generated frame run, the output array
  read block by block, the host lines after the region read as functions), and the reference's generated run ends at
  its own term, which is that array's definition.

  The frames of the two kernel programs are the generated class-A frame certificates; the reference's frame is its
  generated run with the result dropped; the idealization rewrote nothing, so what it must preserve is nothing.
-/
import proofs.«403709_j24644522344646_3_alg».proof.Defs
import proofs.«403709_j24644522344646_3_alg».proof.Proof.Gen.Kernel
import proofs.«403709_j24644522344646_3_alg».proof.Proof.Gen.Kernel.Frame
import proofs.«403709_j24644522344646_3_alg».proof.Proof.Gen.KernelIdeal
import proofs.«403709_j24644522344646_3_alg».proof.Proof.Gen.KernelIdeal.Frame
import proofs.«403709_j24644522344646_3_alg».proof.Proof.Gen.ReferenceIdeal
import proofs.«403709_j24644522344646_3_alg».proof.Proof.Gen.ReferenceIdeal.Run
import proofs.«403709_j24644522344646_3_alg».proof.Proof.Gen.Pre_finite_inputs
import proofs.«403709_j24644522344646_3_alg».proof.Proof.Joined

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end at the common result of those arguments: the
    kernel by its run under the precondition, the reference by its generated run, whose term is that result once the
    arguments' agreement is rewritten. -/
theorem algebraic : Cert.algebraic_KernelIdeal_ReferenceIdeal := by
  intro m ρ m' ρ' hpre hagree
  refine ⟨fun c => Cert.KernelIdeal.Rows.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Rows.kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact Cert.KernelIdeal.Rows.ref_term_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
